-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S32x50000x128 : Shape := ⟨3, ![32, 50000, 128]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S32x50000x128 : S_.BroadcastsInDim S32x50000x128 (![] : Fin 0 → Fin S32x50000x128.rank)
  reducesTo_S32x50000x128_S_d0_1_2 : S32x50000x128.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S32x50000x128 .f32) (main_arg2 : FVec F S128x256 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S32x50000x128 .f32 := Host.absf main_arg1
  let main_cst_0 : FVec F S_ .f32 := constant S_ .f32 0x7F800000#32
  let main_v5 : FVec F S32x50000x128 .f32 := broadcastInDim S32x50000x128 ![] bcast_S_S32x50000x128 main_cst_0
  let main_v6 : IVec S32x50000x128 1 := cmpf .olt main_v4 main_v5
  let main_c_1 : IVec S_ 1 := constantI S_ 1 1#1
  let main_v7 : IVec S_ 1 := (fun x v => Host.reduce IntOp.andi x v reducesTo_S32x50000x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S32x50000x128 : Shape := ⟨3, ![32, 50000, 128]⟩
abbrev S128x256 : Shape := ⟨2, ![128, 256]⟩
abbrev S128 : Shape := ⟨1, ![128]⟩
abbrev S128x128 : Shape := ⟨2, ![128, 128]⟩
abbrev S1000x128 : Shape := ⟨2, ![1000, 128]⟩
abbrev S32x1000x128 : Shape := ⟨3, ![32, 1000, 128]⟩
abbrev S1x128 : Shape := ⟨2, ![1, 128]⟩

abbrev nBuf : Space → Nat
  | .hbm => 11
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S32x50000x128, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .bf16⟩
  | .hbm, ⟨8, _⟩ => ⟨S128x128, .f32⟩
  | .hbm, ⟨9, _⟩ => ⟨S128x128, .bf16⟩
  | .hbm, ⟨10, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S32x1000x128, .f32⟩
  | .local _ .vmem, ⟨3, _⟩ => ⟨S32x1000x128, .f32⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S1000x128, .f32⟩
  | .local _ .vmem, ⟨8, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128x256_S128x128_0_0 : S128x256.Slices ![0, 0] S128x128
  slices_S128x256_S128x128_0_128 : S128x256.Slices ![0, 128] S128x128
  transposes_S128x128_S128x128_1_0 : S128x128.Transposes [1, 0] S128x128
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  inb_S32x1000x128_S32x1000x128_0_0_0 : ∀ a, (![0, 0, 0] : Fin 3 → Nat) a + S32x1000x128.size a ≤ S32x1000x128.size a
  h_S32x1000x128 : 0 < S32x1000x128.numel
  reduces_S32x1000x128_S1000x128 : S32x1000x128.Reduces [0] S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1000x128.size a ≤ S32x50000x128.size a
  hwx0_1 : ∀ i : grid0.Coords, EltTy.bits .f32 = 32 ∨ (Rect.block (s := S32x50000x128) S32x1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S32x50000x128 : Shape := ⟨3, ![32, 50000, 128]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1x50000x128 : Shape := ⟨3, ![1, 50000, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S32x50000x128, .f32⟩
  | .hbm, ⟨2, _⟩ => ⟨S128x256, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S1x50000x128, .f32⟩
  | .hbm, ⟨12, _⟩ => ⟨S32x50000x128, .f32⟩
  | .hbm, ⟨13, _⟩ => ⟨S32x50000x128, .f32⟩
  | .hbm, ⟨14, _⟩ => ⟨S32x50000x128, .f32⟩
  | .hbm, ⟨15, _⟩ => ⟨S_, .f32⟩
  | .hbm, ⟨16, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  bcast_S1x50000x128_S32x50000x128_0_1_2 : S1x50000x128.BroadcastsInDim S32x50000x128 (![0, 1, 2] : Fin 3 → Fin S32x50000x128.rank)
  reducesTo_S32x50000x128_S50000x128_d0 : S32x50000x128.ReducesTo [0] S50000x128
  h_S_ : 0 < S_.numel
  dot_S50000x128_S128x128_S50000x128_1_0_0_1_n_n_wf : DotDims.WF S50000x128 S128x128 S50000x128 [1] [0] [0] [1] [] []
  dot_S32x50000x128_S128x128_S32x50000x128_2_1_01_0_n_n_wf : DotDims.WF S32x50000x128 S128x128 S32x50000x128 [2] [1] [0, 1] [0] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S32x50000x128_S128x128_S32x50000x128_2_1_01_0_n_n : DotDims S32x50000x128 S128x128 S32x50000x128 where
  lhsContracting := [2]
  rhsContracting := [1]
  lhsNonContracting := [0, 1]
  rhsNonContracting := [0]
  lhsBatch := []
  rhsBatch := []
  wf := dot_S32x50000x128_S128x128_S32x50000x128_2_1_01_0_n_n_wf

class Facts : Prop extends Facts₀ where

variable [Facts]
-- ==== Proof.Spec.lean ====
/-
  The node-aggregation function both programs compute, as ONE function of the four argument arrays, index by index
  on the extended reals, and the law that joins its two arrangements.

  For a node `n` and an output feature `o`, with `W = [Wv | Wu]` split at column 128:
    agg n o = ∑ k < 32, ((∑ d < 128, v[n,d] · W[o,d] + b[o]) + ∑ d < 128, nb[k,n,d] · W[o,128+d]).
  The streaming arrangement sums the neighbours first and multiplies the shared part by the neighbour count:
    (32 · ∑ d, v[n,d] · W[o,d] + ∑ d, (∑ k, nb[k,n,d]) · W[o,128+d]) + 32 · b[o].
  The two are equal when every entry is a real number: the step is distributivity of the product over a sum (and the
  exchange of two finite sums), which the extended reals do not have at the infinities.
-/
import Idealize.ShloMosaic.PureOps.Ideal
import Idealize.ShloMosaic.PureOps.Ideal.Laws
import Idealize.ShloMosaic.Lib.ValueIdx

noncomputable section

namespace Cert.Agg

open Idealize.ShloMosaic Idealize.ShloMosaic.ValueIdx

/-- Column `d` of the left half `Wv` of the weight matrix. -/
def colV (d : Fin 128) : Fin 256 := ⟨d.val, by have := d.isLt; omega⟩
/-- Column `d` of the right half `Wu` of the weight matrix. -/
def colU (d : Fin 128) : Fin 256 := ⟨128 + d.val, by have := d.isLt; omega⟩

/-- The aggregated representation of node `n` at output feature `o`: the sum over the 32 neighbours of the shared
    part `v[n,:] · Wv[o,:] + b[o]` plus the neighbour's part `nb[k,n,:] · Wu[o,:]`. -/
def aggAt (v : (⟨2, ![50000, 128]⟩ : Shape).Idx → EReal) (nb : (⟨3, ![32, 50000, 128]⟩ : Shape).Idx → EReal)
    (W : (⟨2, ![128, 256]⟩ : Shape).Idx → EReal) (b : (⟨1, ![128]⟩ : Shape).Idx → EReal) (n : Fin 50000) (o : Fin 128) : EReal :=
  ∑ k : Fin 32, ((∑ d : Fin 128, v (ix2 n d) * W (ix2 o (colV d)) + b (ix1 o)) + ∑ d : Fin 128, nb (ix3 k n d) * W (ix2 o (colU d)))

/-- The whole result array. -/
def agg (v : (⟨2, ![50000, 128]⟩ : Shape).Idx → EReal) (nb : (⟨3, ![32, 50000, 128]⟩ : Shape).Idx → EReal)
    (W : (⟨2, ![128, 256]⟩ : Shape).Idx → EReal) (b : (⟨1, ![128]⟩ : Shape).Idx → EReal) : (⟨2, ![50000, 128]⟩ : Shape).Idx → EReal :=
  fun i => aggAt v nb W b (i 0) (i 1)

/-- The streaming arrangement of the same number: neighbours summed first, the shared part and the bias times the
    neighbour count `c`. -/
def streamAt (c : EReal) (v : (⟨2, ![50000, 128]⟩ : Shape).Idx → EReal) (nb : (⟨3, ![32, 50000, 128]⟩ : Shape).Idx → EReal)
    (W : (⟨2, ![128, 256]⟩ : Shape).Idx → EReal) (b : (⟨1, ![128]⟩ : Shape).Idx → EReal) (n : Fin 50000) (o : Fin 128) : EReal :=
  (c * ∑ d : Fin 128, v (ix2 n d) * W (ix2 o (colV d)) + ∑ d : Fin 128, (∑ k : Fin 32, nb (ix3 k n d)) * W (ix2 o (colU d))) + c * b (ix1 o)

/-- The pattern `0x42000000` is the real number 32, the number of neighbours. -/
theorem ofBits_32 : Ideal.ofBits .f32 0x42000000#32 = ((32 : ℝ) : EReal) := by
  simp [Ideal.ofBits, Ideal.ieee, -EReal.coe_mul]; norm_num

/-- A finite sum of reals, each read as an extended real, is the sum read as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The law on the reals: `K` copies of the shared part plus the neighbours' parts, with the neighbour sum taken
    inside the contraction, is the sum over the neighbours of shared part plus own part. -/
theorem law_real {K D : ℕ} (a w1 w2 : Fin D → ℝ) (u : Fin K → Fin D → ℝ) (β : ℝ) :
    ((K : ℝ) * ∑ d, a d * w1 d + ∑ d, (∑ k, u k d) * w2 d) + (K : ℝ) * β
      = ∑ k : Fin K, ((∑ d, a d * w1 d + β) + ∑ d, u k d * w2 d) := by
  simp only [Finset.sum_add_distrib, Finset.sum_const, Finset.card_univ, Fintype.card_fin, nsmul_eq_mul, Finset.sum_mul]
  rw [Finset.sum_comm]
  ring

/-- The same on the extended reals, for entries that are all real. -/
theorem law_ereal {K D : ℕ} (a w1 w2 : Fin D → ℝ) (u : Fin K → Fin D → ℝ) (β : ℝ) :
    (((K : ℝ) : EReal) * ∑ d, (a d : EReal) * (w1 d : EReal) + ∑ d, (∑ k, (u k d : EReal)) * (w2 d : EReal)) + ((K : ℝ) : EReal) * (β : EReal)
      = ∑ k : Fin K, ((∑ d, (a d : EReal) * (w1 d : EReal) + (β : EReal)) + ∑ d, (u k d : EReal) * (w2 d : EReal)) := by
  simp only [← EReal.coe_mul, coe_sum, ← EReal.coe_add]
  exact congrArg _ (law_real a w1 w2 u β)

/-- An array all of whose entries are real numbers. -/
def AllReal {ι : Type*} (x : ι → EReal) : Prop := ∀ i, ∃ r : ℝ, x i = (r : EReal)

/-- At real entries the streaming arrangement, with the count the real 32, is the aggregate. -/
theorem streamAt_eq_aggAt (c : EReal) (hc : c = ((32 : ℝ) : EReal))
    (v : (⟨2, ![50000, 128]⟩ : Shape).Idx → EReal) (nb : (⟨3, ![32, 50000, 128]⟩ : Shape).Idx → EReal)
    (W : (⟨2, ![128, 256]⟩ : Shape).Idx → EReal) (b : (⟨1, ![128]⟩ : Shape).Idx → EReal)
    (hv : AllReal v) (hnb : AllReal nb) (hW : AllReal W) (hb : AllReal b) (n : Fin 50000) (o : Fin 128) :
    streamAt c v nb W b n o = aggAt v nb W b n o := by
  choose v' hv' using hv
  choose nb' hnb' using hnb
  choose W' hW' using hW
  choose b' hb' using hb
  unfold streamAt aggAt
  simp only [hv', hnb', hW', hb', hc]
  have h := law_ereal (K := 32) (D := 128) (fun d => v' (ix2 n d)) (fun d => W' (ix2 o (colV d))) (fun d => W' (ix2 o (colU d)))
    (fun k d => nb' (ix3 k n d)) (b' (ix1 o))
  simpa using h

end Cert.Agg

end
-- ==== Proof.RefValue.lean ====
/-
  The reference's result, read index by index, is the aggregate `Cert.Agg.agg` of the four argument arrays.

  The reference forms the shared part `v · Wvᵀ + b` once (a contraction over the 128 input features against the left
  half of `W`, the bias broadcast over the nodes), broadcasts it over the 32 neighbours, adds each neighbour's
  contraction against the right half of `W`, and sums over the neighbour axis from the initial value `0`. Read at
  node `n` and feature `o` that is `0 + ∑ k, ((∑ d, v[n,d]·W[o,d] + b[o]) + ∑ d, nb[k,n,d]·W[o,128+d])`: every layout
  operation reads one entry of its operand, and the composed index functions are the coordinates named here.
-/
import proofs.«121418_j65068754534511_1_alg».proof.Proof.Gen.ReferenceIdeal.Read
import proofs.«121418_j65068754534511_1_alg».proof.Proof.Spec

noncomputable section

namespace Cert.Agg.Ref

open Cert.ReferenceIdeal Cert.ReferenceIdeal.Gen Cert.ReferenceIdeal.Read Idealize.ShloMosaic Idealize.ShloMosaic.ValueIdx

/-- The broadcasts over the neighbour axis and back read the shared part at the node and feature themselves. -/
theorem shared_idx (i : S50000x128.Idx) (k : Fin 32) : idx_main_v7 (idx_main_v9 (idx_main_v11 i k)) = i :=
  funext fun a => Fin.ext (by match a with | ⟨0, _⟩ => rfl | ⟨1, _⟩ => rfl)

/-- The shared contraction reads `v` at (node, d). -/
theorem v_idx (i : S50000x128.Idx) (d : Fin 128) : lidx_main_v3 i d = ix2 (i 0) d :=
  funext fun a => Fin.ext (by match a with | ⟨0, _⟩ => rfl | ⟨1, _⟩ => rfl)

/-- … and the transposed left slice of `W` at (feature, d). -/
theorem wv_idx (i : S50000x128.Idx) (d : Fin 128) : idx_main_v0 (idx_main_v2 (ridx_main_v3 i d)) = ix2 (i 1) (colV d) :=
  funext fun a => Fin.ext (by match a with | ⟨0, _⟩ => rfl | ⟨1, _⟩ => rfl)

/-- The two broadcasts of the bias read it at the feature. -/
theorem b_idx (i : S50000x128.Idx) : idx_main_v4 (idx_main_v5 i) = ix1 (i 1) :=
  funext fun a => Fin.ext (by match a with | ⟨0, _⟩ => rfl)

/-- The neighbour contraction reads `nb` at (k, node, d). -/
theorem nb_idx (i : S50000x128.Idx) (k : Fin 32) (d : Fin 128) : lidx_main_v8 (idx_main_v11 i k) d = ix3 k (i 0) d :=
  funext fun a => Fin.ext (by match a with | ⟨0, _⟩ => rfl | ⟨1, _⟩ => rfl | ⟨2, _⟩ => rfl)

/-- … and the right slice of `W` at (feature, 128 + d). -/
theorem wu_idx (i : S50000x128.Idx) (k : Fin 32) (d : Fin 128) : idx_main_v1 (ridx_main_v8 (idx_main_v11 i k) d) = ix2 (i 1) (colU d) :=
  funext fun a => Fin.ext (by match a with | ⟨0, _⟩ => rfl | ⟨1, _⟩ => rfl)

/-- The reference's last stage is the aggregate. -/
theorem ref_eq_agg (x0 : (⟨S50000x128, .f32⟩ : BufTy).Contents (Elt Ideal)) (x1 : (⟨S32x50000x128, .f32⟩ : BufTy).Contents (Elt Ideal))
    (x2 : (⟨S128x256, .f32⟩ : BufTy).Contents (Elt Ideal)) (x3 : (⟨S128, .f32⟩ : BufTy).Contents (Elt Ideal)) :
    val_main_v11 (F := Ideal) x0 x1 x2 x3 = Cert.Agg.agg x0 x1 x2 x3 := by
  funext i
  rw [val_main_v11_apply, val_main_cst_apply]
  simp only [val_main_v10_apply, val_main_v9_apply, val_main_v8_apply, val_main_v7_apply, val_main_v6_apply, val_main_v5_apply,
    val_main_v4_apply, val_main_v3_apply, val_main_v2_apply, val_main_v1_apply, val_main_v0_apply,
    shared_idx, v_idx, wv_idx, b_idx, nb_idx, wu_idx, Ideal.addf_def, Ideal.ofBits_def, Ideal.ofBits_zero_f32, zero_add]
  rfl

end Cert.Agg.Ref

end
-- ==== Proof.Payload.lean ====
/-
  The kernel body's stored value, read at one entry of its 1000 × 128 output block.

  The body sums its 32 × 1000 × 128 neighbour block over the neighbour axis, multiplies the node block and that sum by
  the two 128 × 128 weight blocks (each product accumulated from zero, so a plain sum over the contracted feature
  `d`), broadcasts the bias row over the 1000 nodes, and stores `(32 · P + Q) + 32 · bias`. At row `p` and column `q`:
    (c · ∑ d, x0[p,d] · x2[d,q] + ∑ d, (∑ k, x1[k,p,d]) · x3[d,q]) + c · x4[q],   c the constant 32's pattern.
  A change of float format is the identity on the extended reals, so the bf16 casts in front of the products vanish.
-/
import proofs.«121418_j65068754534511_1_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

noncomputable section

namespace Cert.Agg.Kernel

open Cert.KernelIdeal Cert.KernelIdeal.Gen Idealize.ShloMosaic Idealize.ShloMosaic.ValueIdx

/-! ## The block product's operand indices: rows × contraction, contraction × columns -/

theorem lhs_tile_0 (i : S1000x128.Idx) (r : dot_S1000x128_S128x128_S1000x128_1_0_0_1_n_n.contr.Idx) :
    (dot_S1000x128_S128x128_S1000x128_1_0_0_1_n_n.lhsIdx i r 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_tile_1 (i : S1000x128.Idx) (r : dot_S1000x128_S128x128_S1000x128_1_0_0_1_n_n.contr.Idx) :
    (dot_S1000x128_S128x128_S1000x128_1_0_0_1_n_n.lhsIdx i r 1).val = (r ⟨0, by decide⟩).val :=
  dot_S1000x128_S128x128_S1000x128_1_0_0_1_n_n.lhsIdx_val_of_single rfl i r
theorem rhs_tile_0 (i : S1000x128.Idx) (r : dot_S1000x128_S128x128_S1000x128_1_0_0_1_n_n.contr.Idx) :
    (dot_S1000x128_S128x128_S1000x128_1_0_0_1_n_n.rhsIdx i r 0).val = (r ⟨0, by decide⟩).val :=
  dot_S1000x128_S128x128_S1000x128_1_0_0_1_n_n.rhsIdx_val_of_single rfl i r
theorem rhs_tile_1 (i : S1000x128.Idx) (r : dot_S1000x128_S128x128_S1000x128_1_0_0_1_n_n.contr.Idx) :
    (dot_S1000x128_S128x128_S1000x128_1_0_0_1_n_n.rhsIdx i r 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- A 1000 × 128 by 128 × 128 block product accumulated from zero, at (p, q): the sum over the contracted feature. -/
theorem matmul_tile (A : FVec Ideal S1000x128 .bf16) (B : FVec Ideal S128x128 .bf16) (p : Fin 1000) (q : Fin 128) :
    matmul dot_S1000x128_S128x128_S1000x128_1_0_0_1_n_n none A B (constant (F := Ideal) S1000x128 .f32 0x00000000#32) (ix2 p q)
      = ∑ d : Fin 128, A (ix2 p d) * B (ix2 d q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

/-- The neighbour block summed over its leading axis, at (p, d): the sum over the 32 neighbours. -/
theorem nbsum_tile (X : FVec Ideal S32x1000x128 .f32) (p : Fin 1000) (d : Fin 128) :
    multiReduction .add [0] S1000x128 X 0x00000000#32 reduces_S32x1000x128_S1000x128 (.inl rfl) rfl (ix2 p d)
      = ∑ k : Fin 32, X (ix3 k p d) := by
  refine (Ideal.multiReduction_add_single X 0x00000000#32 reduces_S32x1000x128_S1000x128 (.inl rfl) rfl (ix2 p d)).trans ?_
  exact Finset.sum_congr rfl fun k _ => congrArg X (funext fun a => Fin.ext (by
    match a with | ⟨0, _⟩ => rfl | ⟨1, _⟩ => rfl | ⟨2, _⟩ => rfl))

/-- The bias row laid over the 1000 nodes, at (p, q): the bias at q. -/
theorem bias_tile (β : FVec Ideal S128 .f32) (p : Fin 1000) (q : Fin 128) :
    broadcastTo S1000x128 (shapeCast S1x128 β shapeCasts_S128_S1x128) broadcasts_S1x128_S1000x128 (ix2 p q) = β (ix1 q) :=
  (broadcastTo_1b_ab_apply _ _ p q).trans (shapeCast_a_1a_apply β _ 0 q)

/-- THE STORED VALUE at (p, q). -/
theorem payload_at (x0 : FVec Ideal S1000x128 .f32) (x1 : FVec Ideal S32x1000x128 .f32) (x2 x3 : FVec Ideal S128x128 .bf16)
    (x4 : FVec Ideal S128 .f32) (p : Fin 1000) (q : Fin 128) :
    k0_pay1 (F := Ideal) x0 x1 x2 x3 x4 (ix2 p q)
      = (Ideal.ofBits .f32 0x42000000#32 * ∑ d : Fin 128, x0 (ix2 p d) * x2 (ix2 d q)
          + ∑ d : Fin 128, (∑ k : Fin 32, x1 (ix3 k p d)) * x3 (ix2 d q))
        + Ideal.ofBits .f32 0x42000000#32 * x4 (ix1 q) := by
  unfold k0_pay1
  simp only [addf_apply, mulf_apply, broadcast_apply, shapeCast_self]
  rw [matmul_tile, matmul_tile, bias_tile]
  simp only [truncf_apply]
  exact congrArg₂ (· + ·) (congrArg₂ (· + ·) rfl
    (Finset.sum_congr rfl fun d _ => congrArg (· * x3 (ix2 d q)) (nbsum_tile x1 p d))) rfl

end Cert.Agg.Kernel

end
-- ==== Proof.KernelValue.lean ====
/-
  The kernel's result array after the run is the streaming arrangement of the aggregate, index by index.

  Grid point `t` (of 50) stages rows `1000·t … 1000·t + 999` of `v` and of every neighbour slab of `nb`, the two
  128 × 128 weight arrays whole, and the bias whole, and writes back rows `1000·t …` of the result. The two weight
  arrays are made on the host before the region: the left and right halves of `W`, each transposed (and cast to
  bf16, the identity on the extended reals), so entry (d, o) of the first is `W[o, d]` and of the second `W[o, 128+d]`.
  So the value point `t` stores at block entry (p, q) is the streaming arrangement at node `1000·t + p` and feature `q`;
  the 50 blocks tile the 50000 rows, hence the whole array is that function.
-/
import proofs.«121418_j65068754534511_1_alg».proof.Proof.Gen.KernelIdeal.Value
import proofs.«121418_j65068754534511_1_alg».proof.Proof.Payload
import proofs.«121418_j65068754534511_1_alg».proof.Proof.Spec
import Idealize.ShloMosaic.Lib.StableHlo.Run

set_option maxRecDepth 16384

noncomputable section

namespace Cert.Agg.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The neighbour count as the kernel spells it. -/
abbrev cnt : EReal := Ideal.ofBits .f32 0x42000000#32

/-- The result array: the streaming arrangement of the four argument arrays as launched. -/
def streamArr (c : Dev nD) : S50000x128.Idx → EReal := fun i =>
  Cert.Agg.streamAt cnt (m ((c : Thread nD τ).loc main_arg0)) (m ((c : Thread nD τ).loc main_arg1))
    (m ((c : Thread nD τ).loc main_arg2)) (m ((c : Thread nD τ).loc main_arg3)) (i 0) (i 1)

/-! ## The two weight arrays the host makes -/

/-- The first weight array is the transposed left half of `W`. -/
theorem wv_arr (c : Dev nD) : (V m c main_v3 : S128x128.Idx → EReal)
    = truncf (F := Ideal) .bf16 (transpose S128x128 [1, 0] (extractStridedSlice S128x128 ![0, 0] (m ((c : Thread nD τ).loc main_arg2)) slices_S128x256_S128x128_0_0) transposes_S128x128_S128x128_1_0) bitsLt_bf16_f32 := by
  dsimp only [V, hostOps0]; after_results

/-- The second is the transposed right half. -/
theorem wu_arr (c : Dev nD) : (V m c main_v5 : S128x128.Idx → EReal)
    = truncf (F := Ideal) .bf16 (transpose S128x128 [1, 0] (extractStridedSlice S128x128 ![0, 128] (m ((c : Thread nD τ).loc main_arg2)) slices_S128x256_S128x128_0_128) transposes_S128x128_S128x128_1_0) bitsLt_bf16_f32 := by
  dsimp only [V, hostOps0]; after_results

/-- Entry (d, o) of the first weight array is `W[o, d]`. -/
theorem wv_at (c : Dev nD) (d o : Fin 128) :
    (V m c main_v3 : S128x128.Idx → EReal) (ix2 d o) = m ((c : Thread nD τ).loc main_arg2) (ix2 o (colV d)) := by
  rw [wv_arr, truncf_apply]
  refine (transpose_ix2_apply _ transposes_S128x128_S128x128_1_0 d o).trans ?_
  exact extractStridedSlice_apply ![0, 0] _ slices_S128x256_S128x128_0_0 (ix2 o d) (ix2 o (colV d)) (fun a => match a with
    | ⟨0, _⟩ => by show o.val = 0 + o.val; omega
    | ⟨1, _⟩ => by show d.val = 0 + d.val; omega)

/-- Entry (d, o) of the second is `W[o, 128 + d]`. -/
theorem wu_at (c : Dev nD) (d o : Fin 128) :
    (V m c main_v5 : S128x128.Idx → EReal) (ix2 d o) = m ((c : Thread nD τ).loc main_arg2) (ix2 o (colU d)) := by
  rw [wu_arr, truncf_apply]
  refine (transpose_ix2_apply _ transposes_S128x128_S128x128_1_0 d o).trans ?_
  exact extractStridedSlice_apply ![0, 128] _ slices_S128x256_S128x128_0_128 (ix2 o d) (ix2 o (colU d)) (fun a => match a with
    | ⟨0, _⟩ => by show o.val = 0 + o.val; omega
    | ⟨1, _⟩ => by show 128 + d.val = 128 + d.val; omega)

/-! ## The blocks a point stages -/

/-- The printed index maps over the 50 points: the node windows and the result window sit at block row `t`, everything
    else at block zero. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

abbrev vblk (c : Dev nD) (t : Fin cfg0.N) : FVec Ideal S1000x128 .f32 := iblk m c 0 t
abbrev nbblk (c : Dev nD) (t : Fin cfg0.N) : FVec Ideal S32x1000x128 .f32 := iblk m c 1 t
abbrev wvblk (c : Dev nD) (t : Fin cfg0.N) : FVec Ideal S128x128 .bf16 := iblk m c 2 t
abbrev wublk (c : Dev nD) (t : Fin cfg0.N) : FVec Ideal S128x128 .bf16 := iblk m c 3 t
abbrev bblk (c : Dev nD) (t : Fin cfg0.N) : FVec Ideal S128 .f32 := iblk m c 4 t

/-- The node block at (p, d) is `v` at row `1000·t + p`. -/
theorem vblk_at (c : Dev nD) (t : Fin cfg0.N) (p : Fin 1000) (d : Fin 128) (n : Fin 50000) (hn : n.val = t.val * 1000 + p.val) :
    vblk m c t (ix2 p d) = m ((c : Thread nD τ).loc main_arg0) (ix2 n d) := by
  show V m c main_arg0 (((cfg0.win 0).blk t).view.emb (ix2 p d)) = _
  rw [V_main_arg0]
  refine congrArg _ (funext fun a => Fin.ext ?_)
  obtain ⟨e00, e01, -⟩ := idx_facts t
  match a with
  | ⟨0, _⟩ => show win0_0.index t (0 : Fin 2) * 1000 + 1 * p.val = n.val; omega
  | ⟨1, _⟩ => show win0_0.index t (1 : Fin 2) * 128 + 1 * d.val = d.val; omega

/-- The neighbour block at (k, p, d) is `nb` at (k, 1000·t + p, d). -/
theorem nbblk_at (c : Dev nD) (t : Fin cfg0.N) (k : Fin 32) (p : Fin 1000) (d : Fin 128) (n : Fin 50000) (hn : n.val = t.val * 1000 + p.val) :
    nbblk m c t (ix3 k p d) = m ((c : Thread nD τ).loc main_arg1) (ix3 k n d) := by
  show V m c main_arg1 (((cfg0.win 1).blk t).view.emb (ix3 k p d)) = _
  rw [V_main_arg1]
  refine congrArg _ (funext fun a => Fin.ext ?_)
  obtain ⟨-, -, e10, e11, e12, -⟩ := idx_facts t
  match a with
  | ⟨0, _⟩ => show win0_1.index t (0 : Fin 3) * 32 + 1 * k.val = k.val; omega
  | ⟨1, _⟩ => show win0_1.index t (1 : Fin 3) * 1000 + 1 * p.val = n.val; omega
  | ⟨2, _⟩ => show win0_1.index t (2 : Fin 3) * 128 + 1 * d.val = d.val; omega

/-- The first weight block at (d, o) is `W[o, d]`. -/
theorem wvblk_at (c : Dev nD) (t : Fin cfg0.N) (d o : Fin 128) :
    wvblk m c t (ix2 d o) = m ((c : Thread nD τ).loc main_arg2) (ix2 o (colV d)) := by
  refine Eq.trans ?_ (wv_at m c d o)
  show V m c main_v3 (((cfg0.win 2).blk t).view.emb (ix2 d o)) = V m c main_v3 (ix2 d o)
  refine congrArg _ (funext fun a => Fin.ext ?_)
  obtain ⟨-, -, -, -, -, e20, e21, -⟩ := idx_facts t
  match a with
  | ⟨0, _⟩ => show win0_2.index t (0 : Fin 2) * 128 + 1 * d.val = d.val; omega
  | ⟨1, _⟩ => show win0_2.index t (1 : Fin 2) * 128 + 1 * o.val = o.val; omega

/-- The second weight block at (d, o) is `W[o, 128 + d]`. -/
theorem wublk_at (c : Dev nD) (t : Fin cfg0.N) (d o : Fin 128) :
    wublk m c t (ix2 d o) = m ((c : Thread nD τ).loc main_arg2) (ix2 o (colU d)) := by
  refine Eq.trans ?_ (wu_at m c d o)
  show V m c main_v5 (((cfg0.win 3).blk t).view.emb (ix2 d o)) = V m c main_v5 (ix2 d o)
  refine congrArg _ (funext fun a => Fin.ext ?_)
  obtain ⟨-, -, -, -, -, -, -, e30, e31, -⟩ := idx_facts t
  match a with
  | ⟨0, _⟩ => show win0_3.index t (0 : Fin 2) * 128 + 1 * d.val = d.val; omega
  | ⟨1, _⟩ => show win0_3.index t (1 : Fin 2) * 128 + 1 * o.val = o.val; omega

/-- The bias block is the bias. -/
theorem bblk_at (c : Dev nD) (t : Fin cfg0.N) (o : Fin 128) :
    bblk m c t (ix1 o) = m ((c : Thread nD τ).loc main_arg3) (ix1 o) := by
  show V m c main_arg3 (((cfg0.win 4).blk t).view.emb (ix1 o)) = _
  rw [V_main_arg3]
  refine congrArg _ (funext fun a => Fin.ext ?_)
  obtain ⟨-, -, -, -, -, -, -, -, -, e40, -⟩ := idx_facts t
  match a with
  | ⟨0, _⟩ => show win0_4.index t (0 : Fin 1) * 128 + 1 * o.val = o.val; omega

/-! ## What a point writes back -/

/-- The stored value at block entry (p, q), from blocks that read the arrays at node `n`: the streaming arrangement
    at (n, q). -/
theorem point_value (x0 : FVec Ideal S1000x128 .f32) (x1 : FVec Ideal S32x1000x128 .f32) (x2 x3 : FVec Ideal S128x128 .bf16)
    (x4 : FVec Ideal S128 .f32)
    (v : (⟨2, ![50000, 128]⟩ : Shape).Idx → EReal) (nb : (⟨3, ![32, 50000, 128]⟩ : Shape).Idx → EReal)
    (W : (⟨2, ![128, 256]⟩ : Shape).Idx → EReal) (b : (⟨1, ![128]⟩ : Shape).Idx → EReal)
    (p : Fin 1000) (q : Fin 128) (n : Fin 50000)
    (h0 : ∀ d, x0 (ix2 p d) = v (ix2 n d)) (h1 : ∀ k d, x1 (ix3 k p d) = nb (ix3 k n d))
    (h2 : ∀ d, x2 (ix2 d q) = W (ix2 q (colV d))) (h3 : ∀ d, x3 (ix2 d q) = W (ix2 q (colU d)))
    (h4 : x4 (ix1 q) = b (ix1 q)) :
    k0_pay1 (F := Ideal) x0 x1 x2 x3 x4 (ix2 p q) = Cert.Agg.streamAt cnt v nb W b n q := by
  rw [payload_at]
  simp only [h0, h1, h2, h3, h4]
  rfl

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- WHAT POINT `t` WRITES BACK is block `t` of the streaming arrangement. -/
theorem flushed_eq (c : Dev nD) (t : Fin cfg0.N) :
    (dats m 0 c).flushed 5 t = ((cfg0.win 5).blk t).view.read (Elt Ideal) (streamArr m c) := by
  rw [flushed5]
  unfold out0_5
  rw [View.canon_unit_zero hz2]
  simp only [View.ld_unit_zero (S := S1000x128) hz2, View.ld_unit_zero (S := S32x1000x128) hz3,
    View.ld_unit_zero (S := S128x128) hz2, View.ld_unit_zero (S := S128) hz1]
  refine funext fun (j : S1000x128.Idx) => ?_
  obtain ⟨p, q, rfl⟩ : ∃ (p : Fin 1000) (q : Fin 128), j = ix2 p q := ⟨j 0, j 1, eq_ix2 j⟩
  obtain ⟨-, -, -, -, -, -, -, -, -, -, e50, e51⟩ := idx_facts t
  have hn : ((((cfg0.win 5).blk t).view.emb (ix2 p q)) 0).val = t.val * 1000 + p.val := by
    show win0_5.index t (0 : Fin 2) * 1000 + 1 * p.val = _; omega
  have hq : (((cfg0.win 5).blk t).view.emb (ix2 p q)) 1 = q := Fin.ext (by
    show win0_5.index t (1 : Fin 2) * 128 + 1 * q.val = q.val; omega)
  show k0_pay1 (F := Ideal) (vblk m c t) (nbblk m c t) (wvblk m c t) (wublk m c t) (bblk m c t) (ix2 p q)
    = Cert.Agg.streamAt cnt (m ((c : Thread nD τ).loc main_arg0)) (m ((c : Thread nD τ).loc main_arg1))
        (m ((c : Thread nD τ).loc main_arg2)) (m ((c : Thread nD τ).loc main_arg3))
        ((((cfg0.win 5).blk t).view.emb (ix2 p q)) 0) ((((cfg0.win 5).blk t).view.emb (ix2 p q)) 1)
  rw [hq]
  exact point_value (vblk m c t) (nbblk m c t) (wvblk m c t) (wublk m c t) (bblk m c t)
    (m ((c : Thread nD τ).loc main_arg0)) (m ((c : Thread nD τ).loc main_arg1))
    (m ((c : Thread nD τ).loc main_arg2)) (m ((c : Thread nD τ).loc main_arg3)) p q _
    (fun d => vblk_at m c t p d _ hn) (fun k d => nbblk_at m c t k p d _ hn)
    (fun d => wvblk_at m c t d q) (fun d => wublk_at m c t d q) (bblk_at m c t q)

/-! ## The blocks tile the array -/

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S1000x128.size a ≤ (i a).val ∧ (i a).val < win0_5.index t a * S1000x128.size a + S1000x128.size a := by
  show i ∈ ((View.whole main_v6).slice (win0_5.rect t)).set ↔ _
  rw [View.set_slice_whole, Rect.mem_set_unit]
  exact Iff.rfl

/-- Row `r` is in the block of point `r / 1000`. -/
theorem cover (i : S50000x128.Idx) : ∃ t : Fin cfg0.N, (cfg0.win 5).flush t = true ∧ i ∈ ((cfg0.win 5).blk t).view.set := by
  have hN : grid0.N = 50 := N_0
  have hi0 : (i 0).val < 50000 := (i 0).isLt
  have hi1 : (i 1).val < 128 := (i 1).isLt
  let t : Fin cfg0.N := ⟨(i 0).val / 1000, by show (i 0).val / 1000 < grid0.N; omega⟩
  refine ⟨t, flush0_5 t, ?_⟩
  rw [mem_blk]
  obtain ⟨-, -, -, -, -, -, -, -, -, -, e50, e51⟩ := idx_facts t
  have ht : t.val = (i 0).val / 1000 := rfl
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 128 ≤ (i 1).val ∧ (i 1).val < win0_5.index t (1 : Fin 2) * 128 + 128; omega

/-- THE ARRAY after the run is the streaming arrangement. -/
theorem final (c : Dev nD) : (dats m 0 c).arrAt 5 cfg0.N = streamArr m c :=
  (dats m 0 c).arrAt_eq_of_cover 5 (streamArr m c) (fun t _ => flushed_eq m c t) cover

/-- The kernel's run: the result array at the streaming arrangement, the arguments unchanged. -/
theorem run : θ_run defs (onTc (τ := τ) (main (F := Ideal))) ⟨m, fun _ => 0, ρ⟩ fun r => ∀ c : Dev nD,
      r.2.mem ((c : Thread nD τ).loc main_v6) = streamArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Agg.Kernel

end
-- ==== Proof.Finite.lean ====
/-
  From the precondition to real entries.

  `finite_inputs` says of each of the four argument arrays that every entry's absolute value is below `+inf`
  (`jnp.all(|x| < inf)`), the four facts joined by `and`. On the extended reals `max x (-x) < ⊤` rules out both
  infinities, so every entry is a real number: what the distributive step of the aggregate's law needs.
-/
import proofs.«121418_j65068754534511_1_alg».proof.Pre_finite_inputs
import proofs.«121418_j65068754534511_1_alg».proof.Proof.Spec
import Idealize.ShloMosaic.Lib.ReduceAll
import Idealize.ShloMosaic.Lib.ValueIdx
import Idealize.ShloMosaic.PureOps.Ideal.Laws

noncomputable section

namespace Cert.Agg.Finite

open Idealize.ShloMosaic Cert.Pre_finite_inputs

/-- The pattern `0x7F800000` is `+inf`. -/
theorem ofBits_inf : Ideal.ofBits .f32 0x7F800000#32 = ⊤ := by
  simp [Ideal.ofBits, Ideal.ieee]

/-- An extended real whose absolute value compares below `+inf` is a real number. -/
theorem real_of_cmp (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

instance : Subsingleton S_.Idx := ⟨fun a b => funext fun d => d.elim0⟩

variable [Facts]

/-- Under `finite_inputs` every entry of every argument array is real. -/
theorem allReal_of_pre (x0 : FVec Ideal S50000x128 .f32) (x1 : FVec Ideal S32x50000x128 .f32) (x2 : FVec Ideal S128x256 .f32)
    (x3 : FVec Ideal S128 .f32) (h : fn (F := Ideal) x0 x1 x2 x3 = fun _ => 1#1) :
    Cert.Agg.AllReal x0 ∧ Cert.Agg.AllReal x1 ∧ Cert.Agg.AllReal x2 ∧ Cert.Agg.AllReal x3 := by
  have h' := congrFun h ValueIdx.ix0
  dsimp only [fn, fn_part1] at h'
  obtain ⟨h012, h3⟩ := IntOp.andi_eq_one.mp h'
  obtain ⟨h01, h2⟩ := IntOp.andi_eq_one.mp h012
  obtain ⟨h0, h1⟩ := IntOp.andi_eq_one.mp h01
  refine ⟨fun i => ?_, fun i => ?_, fun i => ?_, fun i => ?_⟩
  · exact real_of_cmp (x0 i) (Host.reduce_andi_all _ _ _ _ _ h0 i)
  · exact real_of_cmp (x1 i) (Host.reduce_andi_all _ _ _ _ _ h1 i)
  · exact real_of_cmp (x2 i) (Host.reduce_andi_all _ _ _ _ _ h2 i)
  · exact real_of_cmp (x3 i) (Host.reduce_andi_all _ _ _ _ _ h3 i)

end Cert.Agg.Finite

end
-- ==== Proof.lean ====
/-
  The five claims about the node aggregator, assembled.

  The kernel streams the neighbour tensor once: per block of 1000 nodes it sums the 32 neighbour slabs, multiplies the
  node block and that sum by the two halves of the weight matrix, and stores `32 · (v · Wvᵀ) + (∑ₖ nbₖ) · Wuᵀ + 32 · b`.
  The reference forms `(v · Wvᵀ + b) + nbₖ · Wuᵀ` for every neighbour and sums over the neighbours. On the extended
  reals both are the same function of the arguments wherever every entry is a real number — the precondition says so of
  every input — by distributivity and the exchange of two finite sums (Proof/Spec.lean).

  Frames: the two kernel programs' frames are the generated frame certificates; the reference has no kernel, and its
  frame is its run with the result forgotten. The idealization rewrote nothing, so `preserves` is `True`. For the
  value claim the common result is the aggregate `Cert.Agg.agg` of the arguments: the kernel's run ends at the streaming
  arrangement (Proof/KernelValue.lean), equal to the aggregate at real entries (Proof/Finite.lean reads them off the
  precondition); the reference's run ends at a term that is the aggregate index by index (Proof/RefValue.lean).
-/
import proofs.«121418_j65068754534511_1_alg».proof.Defs
import proofs.«121418_j65068754534511_1_alg».proof.Proof.Gen.Kernel
import proofs.«121418_j65068754534511_1_alg».proof.Proof.Gen.Kernel.Skeleton
import proofs.«121418_j65068754534511_1_alg».proof.Proof.Gen.Kernel.Launch
import proofs.«121418_j65068754534511_1_alg».proof.Proof.Gen.Kernel.Points
import proofs.«121418_j65068754534511_1_alg».proof.Proof.Gen.Kernel.Frame
import proofs.«121418_j65068754534511_1_alg».proof.Proof.Gen.KernelIdeal
import proofs.«121418_j65068754534511_1_alg».proof.Proof.Gen.KernelIdeal.Skeleton
import proofs.«121418_j65068754534511_1_alg».proof.Proof.Gen.KernelIdeal.Launch
import proofs.«121418_j65068754534511_1_alg».proof.Proof.Gen.KernelIdeal.Points
import proofs.«121418_j65068754534511_1_alg».proof.Proof.Gen.KernelIdeal.Frame
import proofs.«121418_j65068754534511_1_alg».proof.Proof.Gen.ReferenceIdeal
import proofs.«121418_j65068754534511_1_alg».proof.Proof.Gen.Pre_finite_inputs
import proofs.«121418_j65068754534511_1_alg».proof.Proof.Gen.KernelIdeal.Value
import proofs.«121418_j65068754534511_1_alg».proof.Proof.Gen.ReferenceIdeal.Run
import proofs.«121418_j65068754534511_1_alg».proof.Proof.Gen.ReferenceIdeal.Read
import proofs.«121418_j65068754534511_1_alg».proof.Proof.Spec
import proofs.«121418_j65068754534511_1_alg».proof.Proof.RefValue
import proofs.«121418_j65068754534511_1_alg».proof.Proof.KernelValue
import proofs.«121418_j65068754534511_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the aggregate of the (agreeing) arguments. -/
theorem algebraic : Cert.algebraic_KernelIdeal_ReferenceIdeal := by
  intro m ρ m' ρ' hpre hagree
  refine ⟨fun c => Cert.Agg.agg (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: the streaming arrangement, equal to the aggregate because every entry is real
    refine (θ_run Cert.KernelIdeal.defs _ _).mono (fun r h c => ⟨(h c).1.trans ?_, (h c).2⟩) (Cert.Agg.Kernel.run m ρ)
    obtain ⟨hv, hnb, hW, hb⟩ := Cert.Agg.Finite.allReal_of_pre _ _ _ _ (hpre c)
    funext i
    exact Cert.Agg.streamAt_eq_aggAt _ Cert.Agg.ofBits_32 _ _ _ _ hv hnb hW hb (i 0) (i 1)
  · -- the reference: its last stage is the aggregate of its own arguments, which are the kernel's
    refine (θ_run Cert.ReferenceIdeal.defs _ _).mono (fun r h c => ⟨?_, (h c).2⟩)
      (Cert.ReferenceIdeal.Value.run (F := Ideal) m' ρ')
    rw [(h c).1, Cert.ReferenceIdeal.Read.val_main_v11_eq, Cert.Agg.Ref.ref_eq_agg,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
